-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x2048 : Shape := ⟨3, ![4, 1024, 2048]⟩
abbrev S2048x2048 : Shape := ⟨2, ![2048, 2048]⟩
abbrev S2048 : Shape := ⟨1, ![2048]⟩
abbrev S_ : Shape := ⟨0, ![]⟩

class Facts : Prop where
  bcast_S_S4x1024x2048 : S_.BroadcastsInDim S4x1024x2048 (![] : Fin 0 → Fin S4x1024x2048.rank)
  reducesTo_S4x1024x2048_S_d0_1_2 : S4x1024x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4x1024x2048 .f32) (main_arg1 : FVec F S2048x2048 .f32) (main_arg2 : FVec F S2048 .f32) : IVec S_ 1 :=
  let main_v0 : FVec F S4x1024x2048 .f32 := Host.absf main_arg0
  let main_cst : FVec F S_ .f32 := constant S_ .f32 0x7F800000#32
  let main_v1 : FVec F S4x1024x2048 .f32 := broadcastInDim S4x1024x2048 ![] bcast_S_S4x1024x2048 main_cst
  let main_v2 : IVec S4x1024x2048 1 := cmpf .olt main_v0 main_v1
  let main_c : IVec S_ 1 := constantI S_ 1 1#1
  let main_v3 : IVec S_ 1 := (fun x v => Host.reduce IntOp.andi x v reducesTo_S4x1024x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S4x1024x2048 : Shape := ⟨3, ![4, 1024, 2048]⟩
abbrev S2048x2048 : Shape := ⟨2, ![2048, 2048]⟩
abbrev S2048 : Shape := ⟨1, ![2048]⟩
abbrev S4096x2048 : Shape := ⟨2, ![4096, 2048]⟩
abbrev S1x2048 : Shape := ⟨2, ![1, 2048]⟩
abbrev S512x2048 : Shape := ⟨2, ![512, 2048]⟩

abbrev nBuf : Space → Nat
  | .hbm => 10
  | .vmem => 6
  | .smem => 0
  | _ => 0

abbrev bufTy : (tb : Table) → Fin (tcTables nBuf tb) → BufTy
  | .hbm, ⟨0, _⟩ => ⟨S4x1024x2048, .f32⟩
  | .hbm, ⟨1, _⟩ => ⟨S2048x2048, .f32⟩
  | .hbm, ⟨2, _⟩ => ⟨S2048, .f32⟩
  | .hbm, ⟨3, _⟩ => ⟨S4096x2048, .f32⟩
  | .hbm, ⟨4, _⟩ => ⟨S4096x2048, .bf16⟩
  | .hbm, ⟨5, _⟩ => ⟨S2048x2048, .f32⟩
  | .hbm, ⟨6, _⟩ => ⟨S2048x2048, .bf16⟩
  | .hbm, ⟨7, _⟩ => ⟨S1x2048, .f32⟩
  | .hbm, ⟨8, _⟩ => ⟨S4096x2048, .f32⟩
  | .hbm, ⟨9, _⟩ => ⟨S4x1024x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x1024x2048_S4096x2048 : S4x1024x2048.ShapeCasts S4096x2048
  bitsLt_bf16_f32 : FTy.bits .bf16 < FTy.bits .f32
  transposes_S2048x2048_S2048x2048_1_0 : S2048x2048.Transposes [1, 0] S2048x2048
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S4096x2048_S4x1024x2048 : S4096x2048.ShapeCasts S4x1024x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x2048.size a
  hwx0_3 : ∀ i : grid0.Coords, EltTy.bits .f32 = 32 ∨ (Rect.block (s := S4096x2048) S512x2048.size (cc0_transform_3 i) (hinb0_3 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x1024x2048 : Shape := ⟨3, ![4, 1024, 2048]⟩
abbrev S2048x2048 : Shape := ⟨2, ![2048, 2048]⟩
abbrev S2048 : Shape := ⟨1, ![2048]⟩
abbrev S4096x2048 : Shape := ⟨2, ![4096, 2048]⟩
abbrev S4096x16x128 : Shape := ⟨3, ![4096, 16, 128]⟩
abbrev S16x4096x128 : Shape := ⟨3, ![16, 4096, 128]⟩
abbrev S16x128x2048 : Shape := ⟨3, ![16, 128, 2048]⟩
abbrev S16x4096x2048 : Shape := ⟨3, ![16, 4096, 2048]⟩
abbrev S_ : Shape := ⟨0, ![]⟩
abbrev S1x1x2048 : Shape := ⟨3, ![1, 1, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S2048x2048, .f32⟩
  | .hbm, ⟨2, _⟩ => ⟨S2048, .f32⟩
  | .hbm, ⟨3, _⟩ => ⟨S4096x2048, .f32⟩
  | .hbm, ⟨4, _⟩ => ⟨S4096x16x128, .f32⟩
  | .hbm, ⟨5, _⟩ => ⟨S16x4096x128, .f32⟩
  | .hbm, ⟨6, _⟩ => ⟨S2048x2048, .f32⟩
  | .hbm, ⟨7, _⟩ => ⟨S16x128x2048, .f32⟩
  | .hbm, ⟨8, _⟩ => ⟨S16x4096x2048, .f32⟩
  | .hbm, ⟨9, _⟩ => ⟨S_, .f32⟩
  | .hbm, ⟨10, _⟩ => ⟨S4096x2048, .f32⟩
  | .hbm, ⟨11, _⟩ => ⟨S4x1024x2048, .f32⟩
  | .hbm, ⟨12, _⟩ => ⟨S1x1x2048, .f32⟩
  | .hbm, ⟨13, _⟩ => ⟨S4x1024x2048, .f32⟩
  | .hbm, ⟨14, _⟩ => ⟨S4x1024x2048, .f32⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  shapeCasts_S4x1024x2048_S4096x2048 : S4x1024x2048.ShapeCasts S4096x2048
  shapeCasts_S4096x2048_S4096x16x128 : S4096x2048.ShapeCasts S4096x16x128
  transposes_S4096x16x128_S16x4096x128_1_0_2 : S4096x16x128.Transposes [1, 0, 2] S16x4096x128
  transposes_S2048x2048_S2048x2048_1_0 : S2048x2048.Transposes [1, 0] S2048x2048
  shapeCasts_S2048x2048_S16x128x2048 : S2048x2048.ShapeCasts S16x128x2048
  reducesTo_S16x4096x2048_S4096x2048_d0 : S16x4096x2048.ReducesTo [0] S4096x2048
  h_S_ : 0 < S_.numel
  shapeCasts_S4096x2048_S4x1024x2048 : S4096x2048.ShapeCasts S4x1024x2048
  bcast_S2048_S1x1x2048_2 : S2048.BroadcastsInDim S1x1x2048 (![2] : Fin 1 → Fin S1x1x2048.rank)
  bcast_S1x1x2048_S4x1024x2048_0_1_2 : S1x1x2048.BroadcastsInDim S4x1024x2048 (![0, 1, 2] : Fin 3 → Fin S4x1024x2048.rank)
  dot_S16x4096x128_S16x128x2048_S16x4096x2048_2_1_1_2_0_0_wf : DotDims.WF S16x4096x128 S16x128x2048 S16x4096x2048 [2] [1] [1] [2] [0] [0]

variable [Facts₀]

def dot_S16x4096x128_S16x128x2048_S16x4096x2048_2_1_1_2_0_0 : DotDims S16x4096x128 S16x128x2048 S16x4096x2048 where
  lhsContracting := [2]
  rhsContracting := [1]
  lhsNonContracting := [1]
  rhsNonContracting := [2]
  lhsBatch := [0]
  rhsBatch := [0]
  wf := dot_S16x4096x128_S16x128x2048_S16x4096x2048_2_1_1_2_0_0_wf

class Facts : Prop extends Facts₀ where

variable [Facts]
-- ==== Proof.LibDense.lean ====
/-
  A plain matrix product read at an entry.

  For dimension numbers that contract the left operand's axis 1 with the right operand's axis 0 and have no batch axis,
  entry (p, q) of an [M × K] by [K × N] product is the sum over k of left (p, k) times right (k, q): for the
  vector unit's product into a zero accumulator and for the host's general dot alike. The hypotheses are the printed
  dimension numbers, each closed by `rfl` at a use.
-/
import Idealize.ShloMosaic.PureOps.Ideal
import Idealize.ShloMosaic.PureOps.Ideal.Laws
import Idealize.ShloMosaic.Lib.ValueIdx

noncomputable section

namespace Cert.LibDense

open Idealize.ShloMosaic Idealize.ShloMosaic.ValueIdx

variable {M K N : ℕ} (d : DotDims ⟨2, ![M, K]⟩ ⟨2, ![K, N]⟩ ⟨2, ![M, N]⟩)

/-- Two coordinates of one index at provably equal positions have one value. -/
private theorem coord_val_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's column is the contraction index. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction index. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The contraction shape has one axis, of extent K. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  have h := d.size_contr 0 (by rw [hlc]; exact Nat.one_pos)
  rw [h]
  simp [hlc]

/-- The sum over the contraction index is the sum over k of left (p, k) · right (k, q). -/
theorem sum_contr (hlc : d.lhsContracting = [1]) (hrc : d.rhsContracting = [0]) (hln : d.lhsNonContracting = [0])
    (hrn : d.rhsNonContracting = [1]) (hlb : d.lhsBatch = []) (hrb : d.rhsBatch = [])
    (x : (⟨2, ![M, K]⟩ : Shape).Idx → EReal) (w : (⟨2, ![K, N]⟩ : Shape).Idx → EReal) (p : Fin M) (q : Fin N) :
    ∑ k : d.contr.Idx, x (d.lhsIdx (ix2 p q) k) * w (d.rhsIdx (ix2 p q) k) = ∑ kk : Fin K, x (ix2 p kk) * w (ix2 kk q) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 p kk := by
    funext a; apply Fin.ext
    match a with
    | ⟨0, _⟩ => exact lhs_row d hln hlb _ _
    | ⟨1, _⟩ => exact (lhs_col d hlc _ _).trans hk
  have er : d.rhsIdx (ix2 p q) ((contrEquiv1 d K (contr_rank d hlc) (contr_size d hlc)).symm kk) = ix2 kk q := by
    funext a; apply Fin.ext
    match a with
    | ⟨0, _⟩ => exact (rhs_row d hrc _ _).trans hk
    | ⟨1, _⟩ => exact rhs_col d hln hrn hlb hrb _ _
  rw [el, er]

/-- The vector unit's product into a zero accumulator, read at (p, q). -/
theorem matmul_zero_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.matmul d prec x w (constant ⟨2, ![M, N]⟩ .f32 0x00000000#32) (ix2 p q) = ∑ kk : Fin K, x (ix2 p kk) * w (ix2 kk q) := by
  rw [Ideal.matmul_constant_zero_apply]
  exact sum_contr d hlc hrc hln hrn hlb hrb x w p q

/-- The vector unit's product into any accumulator, read at (p, q). -/
theorem matmul_acc_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (acc : FVec Ideal ⟨2, ![M, N]⟩ .f32) (p : Fin M) (q : Fin N) :
    FloatOps.matmul d prec x w acc (ix2 p q) = acc (ix2 p q) + ∑ kk : Fin K, x (ix2 p kk) * w (ix2 kk q) := by
  rw [Ideal.matmul_apply]
  exact congrArg (acc (ix2 p q) + ·) (sum_contr d hlc hrc hln hrn hlb hrb x w p q)

/-- The host's general dot, read at (p, q). -/
theorem dotGeneral_apply {φ₁ φ₂ : FTy} (prec : Option ContractPrecision) (sched : HostSchedule)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.dotGeneral d prec sched x w (ix2 p q) = ∑ kk : Fin K, x (ix2 p kk) * w (ix2 kk q) := by
  rw [Ideal.dotGeneral_apply]
  exact sum_contr d hlc hrc hln hrn hlb hrb x w p q

end Cert.LibDense

end
-- ==== Proof.KernelBlock.lean ====
/-
  The kernel body's value at an entry.

  The body loads a block of 512 token rows, the whole transposed weight matrix and the bias row, multiplies the first
  two into a zero accumulator and adds the bias row broadcast over the 512 rows. At the ideal values its entry
  (p, q) is therefore

      (∑ K < 2048, rows (p, K) · weightᵀ (K, q)) + bias (0, q):

  the product into a zero accumulator is the plain sum over the contracted axis, and the broadcast of a one-row
  matrix reads that row at the column.
-/
import proofs.«173276_j12730283065838_1_alg».proof.Proof.Gen.KernelIdeal.Skeleton
import proofs.«173276_j12730283065838_1_alg».proof.Proof.LibDense
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- The one-row bias block broadcast over 512 rows reads the row at the column. -/
theorem bias_rows (x2 : FVec Ideal S1x2048 .f32) (p : Fin 512) (q : Fin 2048) :
    broadcastTo S512x2048 x2 broadcasts_S1x2048_S512x2048 (ix2 p q) = x2 (ix2 0 q) :=
  broadcastTo_apply x2 broadcasts_S1x2048_S512x2048 (ix2 p q) (ix2 0 q) (fun a => by
    match a with
    | ⟨0, _⟩ => show (0 : ℕ) = if (1 : ℕ) = 1 then 0 else _; rw [if_pos rfl]
    | ⟨1, _⟩ => show q.val = if (2048 : ℕ) = 1 then 0 else q.val; rw [if_neg (by decide)])

/-- Entry (p, q) of what the body stores: row p of the token block against column q of the transposed weights, summed
    over the 2048 features, plus the bias at q. -/
theorem stored_apply (x0 : FVec Ideal S512x2048 .bf16) (x1 : FVec Ideal S2048x2048 .bf16) (x2 : FVec Ideal S1x2048 .f32)
    (p : Fin 512) (q : Fin 2048) :
    k0_pay1 (F := Ideal) x0 x1 x2 (ix2 p q) = (∑ K : Fin 2048, x0 (ix2 p K) * x1 (ix2 K q)) + x2 (ix2 0 q) := by
  unfold k0_pay1
  simp only [shapeCast_self, matmul]
  rw [addf_apply, bias_rows]
  exact congrArg (· + x2 (ix2 0 q))
    (Cert.LibDense.matmul_zero_apply dot_S512x2048_S2048x2048_S512x2048_1_0_0_1_n_n none rfl rfl rfl rfl rfl rfl x0 x1 p q)

end Cert.KernelIdeal.Body

end
-- ==== Proof.Spec.lean ====
/-
  The linear layer as one function of its three argument arrays.

  Read the input as a matrix X of 4096 token rows by 2048 features (row 1024·b + s is token (b, s)); let W be the
  [out × in] weight matrix and β the bias vector. Entry (r, o) of the layer is

      (∑ K < 2048, X (r, K) · W (o, K)) + β o,

  and the result array is that matrix of rows read back as [4 × 1024 × 2048].

  The one law that joins two arrangements of this sum: a sum over 2048 indices is the sum over 16 tiles of the sum
  over the 128 indices of each tile, index 128·n + k. It is a re-indexing of a finite sum in a commutative monoid, so
  on the extended reals it holds with no finiteness assumption: only commutativity and associativity of + are used.
-/
import Idealize.ShloMosaic.PureOps.Ideal
import Idealize.ShloMosaic.Lib.ValueIdx
import Mathlib.Logic.Equiv.Fin.Basic

noncomputable section

namespace Cert.Linear

open Idealize.ShloMosaic Idealize.ShloMosaic.ValueIdx

/-- The result's and the input's shape. -/
abbrev STok : Shape := ⟨3, ![4, 1024, 2048]⟩
/-- The token rows. -/
abbrev SRows : Shape := ⟨2, ![4096, 2048]⟩
/-- The weight matrix, [out × in]. -/
abbrev SWt : Shape := ⟨2, ![2048, 2048]⟩
/-- The bias vector. -/
abbrev SBias : Shape := ⟨1, ![2048]⟩

/-- Entry (r, o) of the layer over the token rows: the inner product of row r with the weight's row o, plus the bias at o. -/
def entry (X : FVec Ideal SRows .f32) (W : FVec Ideal SWt .f32) (β : FVec Ideal SBias .f32) (r : Fin 4096) (o : Fin 2048) : EReal :=
  (∑ K : Fin 2048, X (ix2 r K) * W (ix2 o K)) + β (ix1 o)

/-- The layer over the token rows, as a matrix. -/
def rows (X : FVec Ideal SRows .f32) (W : FVec Ideal SWt .f32) (β : FVec Ideal SBias .f32) : FVec Ideal SRows .f32 :=
  fun j => entry X W β (j 0) (j 1)

/-- The matrix at (r, o) is the entry. -/
theorem rows_apply (X : FVec Ideal SRows .f32) (W : FVec Ideal SWt .f32) (β : FVec Ideal SBias .f32) (r : Fin 4096) (o : Fin 2048) :
    rows X W β (ix2 r o) = entry X W β r o := rfl

/-- The layer's result array: the input flattened to token rows, the rows' layer, read back in the input's shape. -/
def layer (h : STok.ShapeCasts SRows) (h' : SRows.ShapeCasts STok)
    (x : FVec Ideal STok .f32) (W : FVec Ideal SWt .f32) (β : FVec Ideal SBias .f32) : FVec Ideal STok .f32 :=
  shapeCast STok (rows (shapeCast SRows x h) W β) h'

/-- A sum over 2048 indices, tile by tile: 16 tiles of 128, index 128·n + k in tile n. -/
theorem sum_tiles {M : Type*} [AddCommMonoid M] (f : Fin 2048 → M) :
    ∑ n : Fin 16, ∑ k : Fin 128, f ⟨n.val * 128 + k.val, by have := n.isLt; have := k.isLt; omega⟩ = ∑ K : Fin 2048, f K := by
  have h := Equiv.sum_comp (finProdFinEquiv : Fin 16 × Fin 128 ≃ Fin (16 * 128)) (f : Fin (16 * 128) → M)
  refine Eq.trans ?_ h
  rw [Fintype.sum_prod_type]
  refine Finset.sum_congr rfl fun n _ => Finset.sum_congr rfl fun k _ => congrArg f (Fin.ext ?_)
  show n.val * 128 + k.val = k.val + 128 * n.val
  omega

end Cert.Linear

end
-- ==== Proof.KernelArray.lean ====
/-
  The kernel's result array.

  Before the region the host flattens the input to 4096 token rows, transposes the weight matrix and reads the bias as a
  one-row matrix (the changes of float format are the identity at the ideal values). The region runs over 8 grid points:
  point t reads token rows 512·t … 512·t + 511, the whole transposed weight matrix and the bias row, and writes back rows
  512·t … 512·t + 511 of the output matrix. By the body's value at an entry, what point t writes at (p, q) is the layer's
  entry at token row 512·t + p and column q: each write-back is a block of ONE matrix, the layer over the token rows, and
  the 8 blocks cover its 4096 rows (row r lies in block r / 512). So the output matrix ends holding the layer over the
  token rows, and the host's last line reads it back as [4 × 1024 × 2048].
-/
import proofs.«173276_j12730283065838_1_alg».proof.Proof.Gen.KernelIdeal.Frame
import proofs.«173276_j12730283065838_1_alg».proof.Proof.KernelBlock
import proofs.«173276_j12730283065838_1_alg».proof.Proof.Spec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Cert.Linear

variable (m : (ℓ : Loc nD τ sig) → Buf (Elt Ideal) ℓ) (ρ : Dev nD → PrngReg)

/-! ## The arrays the region reads -/

/-- The input as 4096 token rows. -/
abbrev tokRows (c : Dev nD) : FVec Ideal SRows .f32 :=
  shapeCast SRows (m ((c : Thread nD τ).loc main_arg0)) shapeCasts_S4x1024x2048_S4096x2048

/-- The weight matrix as launched, [out × in]. -/
abbrev weights (c : Dev nD) : FVec Ideal SWt .f32 := m ((c : Thread nD τ).loc main_arg1)

/-- The bias vector as launched. -/
abbrev biasVec (c : Dev nD) : FVec Ideal SBias .f32 := m ((c : Thread nD τ).loc main_arg2)

/-- The first window's array holds the token rows. -/
theorem rows_array (c : Dev nD) : (V m c main_v1 : S4096x2048.Idx → EReal) = tokRows m c := by
  show StableHlo.after hostOps0 (fun b => m (c, b)) (Proc.devRef .tc main_v1) = _
  after_results
  rfl

/-- The second window's array holds the transposed weights. -/
theorem weights_array (c : Dev nD) :
    (V m c main_v3 : S2048x2048.Idx → EReal) = transpose S2048x2048 [1, 0] (weights m c) transposes_S2048x2048_S2048x2048_1_0 := by
  show StableHlo.after hostOps0 (fun b => m (c, b)) (Proc.devRef .tc main_v3) = _
  after_results
  rfl

/-- The third window's array holds the bias as a one-row matrix. -/
theorem bias_array (c : Dev nD) :
    (V m c main_v4 : S1x2048.Idx → EReal) = shapeCast S1x2048 (biasVec m c) shapeCasts_S2048_S1x2048 := by
  show StableHlo.after hostOps0 (fun b => m (c, b)) (Proc.devRef .tc main_v4) = _
  after_results
  rfl

/-! ## The blocks at a grid point -/

/-- The block indices over the grid: the token rows' and the output's block is the point's number, the weight matrix
    and the bias row are one block each. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of point t's token block is token row 512·t + p. -/
theorem rows_block (c : Dev nD) (t : Fin cfg0.N) (p : Fin 512) (K : Fin 2048) (r : Fin 4096) (hr : r.val = t.val * 512 + p.val) :
    (iblk m c 0 t : FVec Ideal S512x2048 .bf16) (ix2 p K) = tokRows m c (ix2 r K) := by
  obtain ⟨e0, e1, -⟩ := block_indices t
  unfold iblk
  rw [View.read_apply]
  show (V m c main_v1 : S4096x2048.Idx → EReal) _ = _
  refine (congrFun (rows_array m c) _).trans ?_
  refine congrArg (tokRows m c) (funext fun a => Fin.ext ?_)
  match a with
  | ⟨0, _⟩ => show win0_0.index t (0 : Fin 2) * 512 + 1 * p.val = r.val; rw [e0, hr]; omega
  | ⟨1, _⟩ => show win0_0.index t (1 : Fin 2) * 2048 + 1 * K.val = K.val; rw [e1]; omega

/-- The weight block at (K, q) is the weight at (q, K). -/
theorem weights_block (c : Dev nD) (t : Fin cfg0.N) (K q : Fin 2048) :
    (iblk m c 1 t : FVec Ideal S2048x2048 .bf16) (ix2 K q) = weights m c (ix2 q K) := by
  obtain ⟨-, -, e0, e1, -⟩ := block_indices t
  unfold iblk
  rw [View.read_apply]
  show (V m c main_v3 : S2048x2048.Idx → EReal) _ = _
  refine (congrFun (weights_array m c) _).trans ?_
  refine transpose_apply [1, 0] (weights m c) transposes_S2048x2048_S2048x2048_1_0 _ (ix2 q K) (fun b => ?_)
  match b with
  | ⟨0, _⟩ => show K.val = win0_1.index t (0 : Fin 2) * 2048 + 1 * K.val; rw [e0]; omega
  | ⟨1, _⟩ => show q.val = win0_1.index t (1 : Fin 2) * 2048 + 1 * q.val; rw [e1]; omega

/-- The bias block at (0, q) is the bias at q. -/
theorem bias_block (c : Dev nD) (t : Fin cfg0.N) (q : Fin 2048) :
    (iblk m c 2 t : FVec Ideal S1x2048 .f32) (ix2 0 q) = biasVec m c (ix1 q) := by
  obtain ⟨-, -, -, -, e0, e1, -⟩ := block_indices t
  unfold iblk
  rw [View.read_apply]
  show (V m c main_v4 : S1x2048.Idx → EReal) _ = _
  refine (congrFun (bias_array m c) _).trans ?_
  refine shapeCast_apply (biasVec m c) shapeCasts_S2048_S1x2048 _ (ix1 q) ?_
  rewrite [Shape.rowMajor_val_one, Shape.rowMajor_val_two]
  show q.val = (win0_2.index t (0 : Fin 2) * 1 + 1 * 0) * 2048 + (win0_2.index t (1 : Fin 2) * 2048 + 1 * q.val)
  rw [e0, e1]; omega

/-! ## What a point writes back -/

/-- The output matrix: the layer over the token rows. -/
abbrev outRows (c : Dev nD) : Buf (Elt Ideal) ((c : Thread nD τ).loc main_v5) :=
  rows (tokRows m c) (weights m c) (biasVec m c)

/-- What the body stores at point t, entry y, is the layer's entry at token row 512·t + y₀ and column y₁. -/
theorem stored_entry (c : Dev nD) (t : Fin cfg0.N) (y : S512x2048.Idx) (r : Fin 4096) (o : Fin 2048)
    (hr : r.val = t.val * 512 + (y 0).val) (ho : o.val = (y 1).val) :
    k0_pay1 (F := Ideal) (iblk m c 0 t) (iblk m c 1 t) (iblk m c 2 t) y = rows (tokRows m c) (weights m c) (biasVec m c) (ix2 r o) := by
  obtain ⟨p, q, rfl⟩ : ∃ (p : Fin 512) (q : Fin 2048), y = ix2 p q := ⟨y 0, y 1, eq_ix2 y⟩
  obtain rfl : o = q := Fin.ext ho
  refine (Cert.KernelIdeal.Body.stored_apply (iblk m c 0 t) (iblk m c 1 t) (iblk m c 2 t) p o).trans ?_
  rw [rows_apply]
  unfold entry
  rw [bias_block m c t o]
  refine congrArg (· + biasVec m c (ix1 o)) (Finset.sum_congr rfl fun K _ => ?_)
  rw [rows_block m c t p K r hr, weights_block m c t K o]

theorem hz : (![0, 0] : Fin 2 → Nat) = fun _ => 0 := funext fun a => by fin_cases a <;> rfl

/-- What point t writes back is block t of the layer over the token rows. -/
theorem flushed_eq (c : Dev nD) (t : Fin cfg0.N) :
    (dats m 0 c).flushed 3 t = ((cfg0.win 3).blk t).view.read (Elt Ideal) (outRows m c) := by
  show (cfg0.win 3).cut (grid0.coords t) ((dats m 0 c).after 3 t) = _
  rw [after0_3]
  unfold out0_3
  rw [View.canon_unit_zero hz]
  simp only [View.ld_unit_zero (S := S512x2048) hz, View.ld_unit_zero (S := S2048x2048) hz, View.ld_unit_zero (S := S1x2048) hz]
  obtain ⟨-, -, -, -, -, -, e0, e1⟩ := block_indices t
  have hN : cfg0.N = 8 := N_0
  have ht : t.val < 8 := by have := t.isLt; omega
  funext j
  have hj0 : (j 0).val < 512 := (j 0).isLt
  have hj1 : (j 1).val < 2048 := (j 1).isLt
  refine (stored_entry m c t j ⟨t.val * 512 + (j 0).val, by omega⟩ ⟨(j 1).val, hj1⟩ rfl rfl).trans ?_
  show _ = outRows m c (((cfg0.win 3).blk t).view.emb j)
  refine congrArg (outRows m c) (funext fun a => Fin.ext ?_)
  match a with
  | ⟨0, _⟩ => show t.val * 512 + (j 0).val = win0_3.index t (0 : Fin 2) * 512 + 1 * (j 0).val; rw [e0]; omega
  | ⟨1, _⟩ => show (j 1).val = win0_3.index t (1 : Fin 2) * 2048 + 1 * (j 1).val; rw [e1]; omega

/-! ## The blocks cover the output matrix -/

/-- An index of the output matrix is in point t's block iff each coordinate is in the block's range on its axis. -/
theorem mem_block (t : Fin cfg0.N) (i : S4096x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v5).slice (win0_3.rect t)).set ↔ _
  rw [View.set_slice_whole, Rect.mem_set_unit]
  exact Iff.rfl

/-- Row r of the output matrix is written back at point r / 512. -/
theorem covered (i : S4096x2048.Idx) : ∃ t : Fin cfg0.N, (cfg0.win 3).flush t = true ∧ i ∈ ((cfg0.win 3).blk t).view.set := by
  have hi0 : (i 0).val < 4096 := (i 0).isLt
  have hi1 : (i 1).val < 2048 := (i 1).isLt
  have hN : cfg0.N = 8 := N_0
  obtain ⟨t, ht⟩ : ∃ t : Fin cfg0.N, t.val = (i 0).val / 512 := ⟨⟨(i 0).val / 512, by omega⟩, rfl⟩
  obtain ⟨-, -, -, -, -, -, e0, e1⟩ := block_indices t
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; rw [e0]; omega
  | ⟨1, _⟩ => show win0_3.index t (1 : Fin 2) * 2048 ≤ (i 1).val ∧ (i 1).val < win0_3.index t (1 : Fin 2) * 2048 + 2048; rw [e1]; omega

/-- After the region the output matrix holds the layer over the token rows. -/
theorem final_rows (c : Dev nD) : (dats m 0 c).arrAt 3 cfg0.N = outRows m c :=
  (dats m 0 c).arrAt_eq_of_cover 3 (outRows m c) (fun t _ => flushed_eq m c t) covered

/-! ## The result, and the run -/

/-- The layer of the three argument arrays as launched. -/
abbrev result (c : Dev nD) : Buf (Elt Ideal) ((c : Thread nD τ).loc main_v6) :=
  layer shapeCasts_S4x1024x2048_S4096x2048 shapeCasts_S4096x2048_S4x1024x2048
    (m ((c : Thread nD τ).loc main_arg0)) (weights m c) (biasVec m c)

/-- The host's last line reads the output matrix back in the input's shape: the result array is the layer. -/
theorem result_eq (c : Dev nD) : Pipeline.afterTail₀ cfgs (dats m) 0 (V0 m) [hostOps1] c main_v6 = result m c := by
  unfold Pipeline.afterTail₀
  show StableHlo.after hostOps1 _ (Proc.devRef .tc main_v6) = _
  after_results
  rw [(Pipeline.withArrays_arr spec0 launch0.win.arr_inj c _ _ 3).trans (final_rows m c)]
  rfl

/-- Every weakly fair execution of the kernel's program ends with the result array at the layer of the argument arrays,
    and those unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v6 (Pipeline.mem_restRefs_of main_v6 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Hand

end
-- ==== Proof.RefLayer.lean ====
/-
  The reference's result is the layer.

  The reference cuts the 2048 features into 16 tiles of 128: it reads the token rows as [4096 × 16 × 128] and moves the
  tile axis to the front, reads the transposed weights as [16 × 128 × 2048], multiplies tile by tile, and sums the 16
  partial products from zero. Entry (r, o) of that sum is

      0 + ∑ n < 16, ∑ k < 128, X (r, 128·n + k) · W (o, 128·n + k),

  which is the inner product over all 2048 features by the tile law. The result is then read back as
  [4 × 1024 × 2048] and the bias, broadcast along the last axis, is added.
-/
import proofs.«173276_j12730283065838_1_alg».proof.Proof.Gen.ReferenceIdeal.Read
import proofs.«173276_j12730283065838_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.Linear

/-- Feature k of tile n of token row t is feature 128·n + k of the row. -/
theorem tile_rows (x0 : FVec Ideal S4x1024x2048 .f32) (n : Fin 16) (t : Fin 4096) (k : Fin 128) :
    val_main_v2 (F := Ideal) x0 (ix3 n t k)
      = val_main_v0 (F := Ideal) x0 (ix2 t ⟨n.val * 128 + k.val, by have := n.isLt; have := k.isLt; omega⟩) := by
  rw [val_main_v2_apply, val_main_v1_apply]
  refine congrArg (val_main_v0 (F := Ideal) x0) (funext fun a => Fin.ext ?_)
  have hn := n.isLt; have hk := k.isLt; have ht := t.isLt
  match a with
  | ⟨0, _⟩ => show ((t.val * 16 + n.val) * 128 + k.val) / 2048 = t.val; omega
  | ⟨1, _⟩ => show ((t.val * 16 + n.val) * 128 + k.val) % 2048 = n.val * 128 + k.val; omega

/-- Row k of tile n of the transposed weights, at column o, is the weight at (o, 128·n + k). -/
theorem tile_weights (x1 : FVec Ideal S2048x2048 .f32) (n : Fin 16) (k : Fin 128) (o : Fin 2048) :
    val_main_v4 (F := Ideal) x1 (ix3 n k o)
      = x1 (ix2 o ⟨n.val * 128 + k.val, by have := n.isLt; have := k.isLt; omega⟩) := by
  rw [val_main_v4_apply, val_main_v3_apply]
  refine congrArg x1 (funext fun a => Fin.ext ?_)
  have hn := n.isLt; have hk := k.isLt; have ho := o.isLt
  match a with
  | ⟨0, _⟩ => show ((n.val * 128 + k.val) * 2048 + o.val) % 2048 = o.val; omega
  | ⟨1, _⟩ => show ((n.val * 128 + k.val) * 2048 + o.val) / 2048 = n.val * 128 + k.val; omega

/-- The sum of the 16 tile products is the inner product over all 2048 features. -/
theorem tiles_sum (x0 : FVec Ideal S4x1024x2048 .f32) (x1 : FVec Ideal S2048x2048 .f32) (t : Fin 4096) (o : Fin 2048) :
    val_main_v6 (F := Ideal) x0 x1 (ix2 t o)
      = ∑ K : Fin 2048, val_main_v0 (F := Ideal) x0 (ix2 t K) * x1 (ix2 o K) := by
  rw [val_main_v6_apply, val_main_cst_apply]
  show Ideal.ofBits .f32 0x00000000#32 + _ = _
  rw [Ideal.ofBits_zero_f32, zero_add,
    ← sum_tiles (fun K : Fin 2048 => val_main_v0 (F := Ideal) x0 (ix2 t K) * x1 (ix2 o K))]
  refine Finset.sum_congr rfl fun n _ => ?_
  rw [val_main_v5_apply]
  refine Finset.sum_congr rfl fun k _ => ?_
  have el : lidx_main_v5 (idx_main_v6 (ix2 t o) n) k = ix3 n t k :=
    funext fun a => by match a with | ⟨0, _⟩ => rfl | ⟨1, _⟩ => rfl | ⟨2, _⟩ => rfl
  have er : ridx_main_v5 (idx_main_v6 (ix2 t o) n) k = ix3 n k o :=
    funext fun a => by match a with | ⟨0, _⟩ => rfl | ⟨1, _⟩ => rfl | ⟨2, _⟩ => rfl
  rw [el, er, tile_rows, tile_weights]

/-- The reference's result array is the layer of its three arguments: entry (b, s, o) is the layer's entry at token row
    1024·b + s and column o. -/
theorem result_eq (x0 : FVec Ideal S4x1024x2048 .f32) (x1 : FVec Ideal S2048x2048 .f32) (x2 : FVec Ideal S2048 .f32) :
    val_main_v10 (F := Ideal) x0 x1 x2
      = layer shapeCasts_S4x1024x2048_S4096x2048 shapeCasts_S4096x2048_S4x1024x2048 x0 x1 x2 := by
  funext i
  have h0 : (i 0).val < 4 := (i 0).isLt
  have h1 : (i 1).val < 1024 := (i 1).isLt
  have h2 : (i 2).val < 2048 := (i 2).isLt
  obtain ⟨t, ht⟩ : ∃ t : Fin 4096, t.val = (i 0).val * 1024 + (i 1).val := ⟨⟨_, by omega⟩, rfl⟩
  obtain ⟨o, ho⟩ : ∃ o : Fin 2048, o.val = (i 2).val := ⟨⟨_, h2⟩, rfl⟩
  have hj : idx_main_v7 i = ix2 t o :=
    funext fun a => Fin.ext (by
      match a with
      | ⟨0, _⟩ => show (((i 0).val * 1024 + (i 1).val) * 2048 + (i 2).val) / 2048 = t.val; omega
      | ⟨1, _⟩ => show (((i 0).val * 1024 + (i 1).val) * 2048 + (i 2).val) % 2048 = o.val; omega)
  have hcast : layer shapeCasts_S4x1024x2048_S4096x2048 shapeCasts_S4096x2048_S4x1024x2048 x0 x1 x2 i
      = rows (shapeCast SRows x0 shapeCasts_S4x1024x2048_S4096x2048) x1 x2 (idx_main_v7 i) := by
    unfold layer
    exact shapeCast_apply _ shapeCasts_S4096x2048_S4x1024x2048 i (idx_main_v7 i)
      (by rewrite [Shape.rowMajor_val_two, Shape.rowMajor_val_three]
          show (((i 0).val * 1024 + (i 1).val) * 2048 + (i 2).val) / 2048 * 2048 + (((i 0).val * 1024 + (i 1).val) * 2048 + (i 2).val) % 2048 = ((i 0).val * 1024 + (i 1).val) * 2048 + (i 2).val
          omega)
  have hbias : idx_main_v8 (idx_main_v9 i) = ix1 o :=
    funext fun a => Fin.ext (by
      match a with
      | ⟨0, _⟩ => show (i 2).val = o.val; omega)
  rw [hcast, val_main_v10_apply, val_main_v7_apply, val_main_v9_apply, val_main_v8_apply, hj, rows_apply, tiles_sum, hbias]
  rfl

end Cert.ReferenceIdeal.RefValue

end
-- ==== Proof.lean ====
/-
  A linear layer, out = x · Wᵀ + β over 4 × 1024 tokens of 2048 features, computed two ways.

  The kernel flattens the tokens to 4096 rows, transposes the weight matrix once, and for each block of 512 rows forms
  the whole inner product over the 2048 features in one matrix product into a zero accumulator, adds the bias row, and
  writes the block back; the host reads the 4096 × 2048 result back as [4 × 1024 × 2048].

  The reference cuts the 2048 features into 16 tiles of 128, multiplies tile by tile, sums the 16 partial products from
  zero, reads the sum back as [4 × 1024 × 2048] and adds the bias along the last axis.

  On the extended reals both are ONE function of the three argument arrays (Proof/Spec.lean): entry (b, s, o) is
  (∑ K < 2048, x (b, s, K) · W (o, K)) + β o. The kernel's changes of float format are the identity there, its product
  into a zero accumulator is the plain sum, and the reference's sum over tiles of sums over a tile is the sum over all
  features — a re-indexing of a finite sum, which uses only commutativity and associativity of +, so the inputs'
  finiteness is never needed. The idealized kernel is the printed kernel read at the ideal values: no rewrite was applied,
  so there is nothing to preserve.
-/
import proofs.«173276_j12730283065838_1_alg».proof.Defs
import proofs.«173276_j12730283065838_1_alg».proof.Proof.Gen.Kernel
import proofs.«173276_j12730283065838_1_alg».proof.Proof.Gen.Kernel.Skeleton
import proofs.«173276_j12730283065838_1_alg».proof.Proof.Gen.Kernel.Launch
import proofs.«173276_j12730283065838_1_alg».proof.Proof.Gen.Kernel.Points
import proofs.«173276_j12730283065838_1_alg».proof.Proof.Gen.Kernel.Frame
import proofs.«173276_j12730283065838_1_alg».proof.Proof.Gen.KernelIdeal
import proofs.«173276_j12730283065838_1_alg».proof.Proof.Gen.KernelIdeal.Skeleton
import proofs.«173276_j12730283065838_1_alg».proof.Proof.Gen.KernelIdeal.Launch
import proofs.«173276_j12730283065838_1_alg».proof.Proof.Gen.KernelIdeal.Points
import proofs.«173276_j12730283065838_1_alg».proof.Proof.Gen.KernelIdeal.Frame
import proofs.«173276_j12730283065838_1_alg».proof.Proof.Gen.ReferenceIdeal
import proofs.«173276_j12730283065838_1_alg».proof.Proof.Gen.Pre_finite_inputs
import proofs.«173276_j12730283065838_1_alg».proof.Proof.Gen.ReferenceIdeal.Run
import proofs.«173276_j12730283065838_1_alg».proof.Proof.Gen.ReferenceIdeal.Read
import proofs.«173276_j12730283065838_1_alg».proof.Proof.KernelArray
import proofs.«173276_j12730283065838_1_alg».proof.Proof.RefLayer
import Idealize.ShloMosaic.Adequacy
import Idealize.ShloMosaic.Init

noncomputable section

namespace Cert.Proof

open Idealize.ShloMosaic Idealize.ShloMosaic.TcCoe Idealize.SL.Sem

/-- The printed kernel runs, faults nowhere and leaves its arguments as launched. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments, the kernel's result array ends at the layer of its arguments and
    the reference's at the layer of its own: the same array. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
